-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x9801 : Shape := ⟨2, ![16384, 9801]⟩
abbrev S25x9801 : Shape := ⟨2, ![25, 9801]⟩
abbrev S_ : Shape := ⟨0, ![]⟩

class Facts : Prop where
  bcast_S_S16384x9801 : S_.BroadcastsInDim S16384x9801 (![] : Fin 0 → Fin S16384x9801.rank)
  reducesTo_S16384x9801_S_d0_1 : S16384x9801.ReducesTo [0, 1] S_
  h_S_ : 0 < S_.numel
  bcast_S_S25x9801 : S_.BroadcastsInDim S25x9801 (![] : Fin 0 → Fin S25x9801.rank)
  reducesTo_S25x9801_S_d0_1 : S25x9801.ReducesTo [0, 1] S_

variable [Facts]

def fn {F : FTy → Type} [FloatOps F] (main_arg0 : FVec F S16384x9801 .f32) (main_arg1 : FVec F S25x9801 .f32) : IVec S_ 1 :=
  let main_v0 : FVec F S16384x9801 .f32 := Host.absf main_arg0
  let main_cst : FVec F S_ .f32 := constant S_ .f32 0x7F800000#32
  let main_v1 : FVec F S16384x9801 .f32 := broadcastInDim S16384x9801 ![] bcast_S_S16384x9801 main_cst
  let main_v2 : IVec S16384x9801 1 := cmpf .olt main_v0 main_v1
  let main_c : IVec S_ 1 := constantI S_ 1 1#1
  let main_v3 : IVec S_ 1 := (fun x v => Host.reduce IntOp.andi x v reducesTo_S16384x9801_S_d0_1 h_S_) main_v2 main_c
  let main_v4 : FVec F S25x9801 .f32 := Host.absf main_arg1
  let main_cst_0 : FVec F S_ .f32 := constant S_ .f32 0x7F800000#32
  let main_v5 : FVec F S25x9801 .f32 := broadcastInDim S25x9801 ![] bcast_S_S25x9801 main_cst_0
  let main_v6 : IVec S25x9801 1 := cmpf .olt main_v4 main_v5
  let main_c_1 : IVec S_ 1 := constantI S_ 1 1#1
  let main_v7 : IVec S_ 1 := (fun x v => Host.reduce IntOp.andi x v reducesTo_S25x9801_S_d0_1 h_S_) main_v6 main_c_1
  let main_v8 : IVec S_ 1 := andi main_v3 main_v7
  main_v8
-- ==== Kernel.lean ====
abbrev S16384x9801 : Shape := ⟨2, ![16384, 9801]⟩
abbrev S25x9801 : Shape := ⟨2, ![25, 9801]⟩
abbrev S_ : Shape := ⟨0, ![]⟩
abbrev S128x9801 : Shape := ⟨2, ![128, 9801]⟩
abbrev S16384x128 : Shape := ⟨2, ![16384, 128]⟩
abbrev S256x9801 : Shape := ⟨2, ![256, 9801]⟩
abbrev S256x128 : Shape := ⟨2, ![256, 128]⟩
abbrev S16384x25 : Shape := ⟨2, ![16384, 25]⟩

abbrev nBuf : Space → Nat
  | .hbm => 8
  | .vmem => 5
  | .smem => 0
  | _ => 0

abbrev bufTy : (tb : Table) → Fin (tcTables nBuf tb) → BufTy
  | .hbm, ⟨0, _⟩ => ⟨S16384x9801, .f32⟩
  | .hbm, ⟨1, _⟩ => ⟨S25x9801, .f32⟩
  | .hbm, ⟨2, _⟩ => ⟨S_, .i32⟩
  | .hbm, ⟨3, _⟩ => ⟨S_, .f32⟩
  | .hbm, ⟨4, _⟩ => ⟨S128x9801, .f32⟩
  | .hbm, ⟨5, _⟩ => ⟨S128x9801, .bf16⟩
  | .hbm, ⟨6, _⟩ => ⟨S16384x128, .f32⟩
  | .hbm, ⟨7, _⟩ => ⟨S16384x25, .f32⟩
  | .local _ .vmem, ⟨0, _⟩ => ⟨S256x9801, .f32⟩
  | .local _ .vmem, ⟨1, _⟩ => ⟨S256x9801, .f32⟩
  | .local _ .vmem, ⟨2, _⟩ => ⟨S128x9801, .bf16⟩
  | .local _ .vmem, ⟨3, _⟩ => ⟨S256x128, .f32⟩
  | .local _ .vmem, ⟨4, _⟩ => ⟨S256x128, .f32⟩
  | _, _ => ⟨S16384x9801, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9801 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x9801 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S25x9801_S128x9801_01030_000 : S25x9801.Pads (![0, 0] : Fin 2 → Nat) ![103, 0] ![0, 0] S128x9801
  h_S_ : 0 < S_.numel
  bitsLt_bf16_f32 : FTy.bits .bf16 < FTy.bits .f32
  inb_S256x9801_S256x9801_0_0 : ∀ a, (![0, 0] : Fin 2 → Nat) a + S256x9801.size a ≤ S256x9801.size a
  h_S256x9801 : 0 < S256x9801.numel
  inb_S128x9801_S128x9801_0_0 : ∀ a, (![0, 0] : Fin 2 → Nat) a + S128x9801.size a ≤ S128x9801.size a
  h_S128x9801 : 0 < S128x9801.numel
  shapeCasts_S128x9801_S128x9801 : S128x9801.ShapeCasts S128x9801
  inb_S256x128_S256x128_0_0 : ∀ a, (![0, 0] : Fin 2 → Nat) a + S256x128.size a ≤ S256x128.size a
  h_S256x128 : 0 < S256x128.numel
  slices_S16384x128_S16384x25_0_0 : S16384x128.Slices ![0, 0] S16384x25
  dot_S256x9801_S128x9801_S256x128_1_1_0_0_n_n_wf : DotDims.WF S256x9801 S128x9801 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x9801.size a ≤ S16384x9801.size a
  hwx0_0 : ∀ i : grid0.Coords, EltTy.bits .f32 = 32 ∨ (Rect.block (s := S16384x9801) S256x9801.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x9801.size a ≤ S128x9801.size a
  hwx0_1 : ∀ i : grid0.Coords, EltTy.bits .bf16 = 32 ∨ (Rect.block (s := S128x9801) S128x9801.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S16384x128.size a
  hwx0_2 : ∀ i : grid0.Coords, EltTy.bits .f32 = 32 ∨ (Rect.block (s := S16384x128) S256x128.size (cc0_transform_2 i) (hinb0_2 i)).WholeWords (EltTy.packing .f32)

variable [Facts₀]

def dot_S256x9801_S128x9801_S256x128_1_1_0_0_n_n : DotDims S256x9801 S128x9801 S256x128 where
  lhsContracting := [1]
  rhsContracting := [1]
  lhsNonContracting := [0]
  rhsNonContracting := [0]
  lhsBatch := []
  rhsBatch := []
  wf := dot_S256x9801_S128x9801_S256x128_1_1_0_0_n_n_wf

abbrev win0_0 : Pipeline.Window sig grid0 :=
  Pipeline.Window.ofSpec (Memref.whole main_arg0) S256x9801.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x9801.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x9801 : Shape := ⟨2, ![16384, 9801]⟩
abbrev S25x9801 : Shape := ⟨2, ![25, 9801]⟩
abbrev S16384x25 : Shape := ⟨2, ![16384, 25]⟩

abbrev nBuf : Space → Nat
  | .hbm => 3
  | .vmem => 0
  | .smem => 0
  | _ => 0

abbrev bufTy : (tb : Table) → Fin (tcTables nBuf tb) → BufTy
  | .hbm, ⟨0, _⟩ => ⟨S16384x9801, .f32⟩
  | .hbm, ⟨1, _⟩ => ⟨S25x9801, .f32⟩
  | .hbm, ⟨2, _⟩ => ⟨S16384x25, .f32⟩
  | _, _ => ⟨S16384x9801, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x9801_S25x9801_S16384x25_1_1_0_0_n_n_wf : DotDims.WF S16384x9801 S25x9801 S16384x25 [1] [1] [0] [0] [] []

variable [Facts₀]

def dot_S16384x9801_S25x9801_S16384x25_1_1_0_0_n_n : DotDims S16384x9801 S25x9801 S16384x25 where
  lhsContracting := [1]
  rhsContracting := [1]
  lhsNonContracting := [0]
  rhsNonContracting := [0]
  lhsBatch := []
  rhsBatch := []
  wf := dot_S16384x9801_S25x9801_S16384x25_1_1_0_0_n_n_wf

class Facts : Prop extends Facts₀ where

variable [Facts]
-- ==== Proof.EmbedSpec.lean ====
/-
  The linear embedding as ONE function of its two arguments.  With `x` a matrix of `B` rows and `w` a matrix of
  `R` rows, both over the same 9801 columns, entry `(b, o)` of the result is the inner product of row `b` of `x`
  with row `o` of `w`:  out[b, o] = Σ_k x[b, k] · w[o, k].
  Both programs compute this function; here it is stated once, over the extended reals, with the row counts left
  free so that the same text speaks of a 256-row block of the input, of the whole 16384-row input, of the 25 given
  rows of the measure and of its 128 padded rows.
-/
import Idealize.ShloMosaic.PureOps.Ideal
import Idealize.ShloMosaic.Lib.ValueIdx

noncomputable section

namespace Cert.Embed

open Idealize.ShloMosaic Idealize.ShloMosaic.ValueIdx

/-- The inner product of row `b` of `x` and row `o` of `w` over their 9801 shared columns. -/
def rowDot {B R : Nat} (x : (⟨2, ![B, 9801]⟩ : Shape).Idx → EReal) (w : (⟨2, ![R, 9801]⟩ : Shape).Idx → EReal)
    (b : Fin B) (o : Fin R) : EReal :=
  ∑ k : Fin 9801, x (ix2 b k) * w (ix2 o k)

/-- The embedding: entry `(b, o)` is row `b` of `x` against row `o` of `w`. -/
def embed {B R : Nat} (x : (⟨2, ![B, 9801]⟩ : Shape).Idx → EReal) (w : (⟨2, ![R, 9801]⟩ : Shape).Idx → EReal) :
    (⟨2, ![B, R]⟩ : Shape).Idx → EReal :=
  fun i => rowDot x w (i 0) (i 1)

/-- The embedding at an index given by its two coordinates. -/
theorem embed_ix2 {B R : Nat} (x : (⟨2, ![B, 9801]⟩ : Shape).Idx → EReal) (w : (⟨2, ![R, 9801]⟩ : Shape).Idx → EReal)
    (b : Fin B) (o : Fin R) : embed x w (ix2 b o) = rowDot x w b o := rfl

/-- Two weight matrices that agree on row `o'` of the one and row `o` of the other give the same inner product with
    every row of `x`: only the one row of the weights enters an entry of the result. -/
theorem rowDot_congr_row {B R R' : Nat} (x : (⟨2, ![B, 9801]⟩ : Shape).Idx → EReal)
    (w : (⟨2, ![R, 9801]⟩ : Shape).Idx → EReal) (w' : (⟨2, ![R', 9801]⟩ : Shape).Idx → EReal)
    (b : Fin B) (o : Fin R) (o' : Fin R') (h : ∀ k : Fin 9801, w' (ix2 o' k) = w (ix2 o k)) :
    rowDot x w' b o' = rowDot x w b o :=
  Finset.sum_congr rfl fun k _ => by rw [h k]

end Cert.Embed

end
-- ==== Proof.BlockProduct.lean ====
/-
  What the kernel body stores at one grid point, read at an index.  The body loads a 256-row block of the input and
  the whole 128-row padded measure, narrows the input block to bf16 (the identity on exact values), and multiplies on
  the matrix unit into a zero accumulator, contracting the 9801 columns of both operands.  At the exact values the
  product's entry `(p, j)` is therefore the inner product of row `p` of the block with row `j` of the measure:
  the embedding of the block.
-/
import proofs.«409601_j35588099015224_3_alg».proof.Proof.Gen.KernelIdeal.Skeleton
import proofs.«409601_j35588099015224_3_alg».proof.Proof.EmbedSpec
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx Cert.Embed

/-! ## The product's operand indices, axis by axis

  At output index `i = (p, j)` and contraction index `q`, the left operand is read at `(p, q)` and the right at
  `(j, q)`: both operands contract their second axis. -/

theorem lhs_axis0 (i : S256x128.Idx) (q : dot_S256x9801_S128x9801_S256x128_1_1_0_0_n_n.contr.Idx) :
    (dot_S256x9801_S128x9801_S256x128_1_1_0_0_n_n.lhsIdx i q 0).val = (i 0).val := by
  unfold DotDims.lhsIdx
  rw [dif_neg (show ¬(0 : Fin S256x9801.rank) ∈ dot_S256x9801_S128x9801_S256x128_1_1_0_0_n_n.lhsBatch by decide), dif_pos (show (0 : Fin S256x9801.rank) ∈ dot_S256x9801_S128x9801_S256x128_1_1_0_0_n_n.lhsNonContracting by decide)]
  rfl
theorem lhs_axis1 (i : S256x128.Idx) (q : dot_S256x9801_S128x9801_S256x128_1_1_0_0_n_n.contr.Idx) :
    (dot_S256x9801_S128x9801_S256x128_1_1_0_0_n_n.lhsIdx i q 1).val = (q ⟨0, by decide⟩).val :=
  dot_S256x9801_S128x9801_S256x128_1_1_0_0_n_n.lhsIdx_val_of_single rfl i q
theorem rhs_axis0 (i : S256x128.Idx) (q : dot_S256x9801_S128x9801_S256x128_1_1_0_0_n_n.contr.Idx) :
    (dot_S256x9801_S128x9801_S256x128_1_1_0_0_n_n.rhsIdx i q 0).val = (i 1).val := by
  unfold DotDims.rhsIdx
  rw [dif_neg (show ¬(0 : Fin S128x9801.rank) ∈ dot_S256x9801_S128x9801_S256x128_1_1_0_0_n_n.rhsBatch by decide), dif_pos (show (0 : Fin S128x9801.rank) ∈ dot_S256x9801_S128x9801_S256x128_1_1_0_0_n_n.rhsNonContracting by decide)]
  rfl
theorem rhs_axis1 (i : S256x128.Idx) (q : dot_S256x9801_S128x9801_S256x128_1_1_0_0_n_n.contr.Idx) :
    (dot_S256x9801_S128x9801_S256x128_1_1_0_0_n_n.rhsIdx i q 1).val = (q ⟨0, by decide⟩).val :=
  dot_S256x9801_S128x9801_S256x128_1_1_0_0_n_n.rhsIdx_val_of_single rfl i q

/-! ## The stored value at an index -/

/-- Entry `(p, j)` of what the body stores is row `p` of the loaded input block against row `j` of the loaded
    measure: the narrowing to bf16 and the same-shape cast are identities on exact values, the accumulator is zero, and
    the contraction index is re-indexed by its one coordinate. -/
theorem stored_apply (x0 : FVec Ideal S256x9801 .f32) (x1 : FVec Ideal S128x9801 .bf16) (p : Fin 256) (j : Fin 128) :
    k0_pay1 (F := Ideal) x0 x1 (ix2 p j) = rowDot x0 x1 p j := by
  unfold k0_pay1
  simp only [matmul]
  rw [shapeCast_self, Ideal.matmul_constant_zero_apply,
    ← Equiv.sum_comp (contrEquiv1 dot_S256x9801_S128x9801_S256x128_1_1_0_0_n_n 9801 rfl rfl).symm]
  unfold rowDot
  refine Finset.sum_congr rfl fun k _ => ?_
  have hk := contrEquiv1_symm_val dot_S256x9801_S128x9801_S256x128_1_1_0_0_n_n 9801 rfl rfl k
  have el : dot_S256x9801_S128x9801_S256x128_1_1_0_0_n_n.lhsIdx (ix2 p j) ((contrEquiv1 dot_S256x9801_S128x9801_S256x128_1_1_0_0_n_n 9801 rfl rfl).symm k) = ix2 p k := funext fun a => Fin.ext (by
    match a with
    | ⟨0, _⟩ => exact lhs_axis0 _ _
    | ⟨1, _⟩ => exact (lhs_axis1 _ _).trans hk)
  have er : dot_S256x9801_S128x9801_S256x128_1_1_0_0_n_n.rhsIdx (ix2 p j) ((contrEquiv1 dot_S256x9801_S128x9801_S256x128_1_1_0_0_n_n 9801 rfl rfl).symm k) = ix2 j k := funext fun a => Fin.ext (by
    match a with
    | ⟨0, _⟩ => exact rhs_axis0 _ _
    | ⟨1, _⟩ => exact (rhs_axis1 _ _).trans hk)
  rw [el, er]
  rfl

end Cert.KernelIdeal.BlockProduct

end
-- ==== Proof.RegionArray.lean ====
/-
  The region's output array after the run, as one function of what the region finds.  The grid has 64 points; point
  `t` is given rows 256·t … 256·t + 255 of the input, the whole padded measure, and writes back rows
  256·t … 256·t + 255 of the 16384 × 128 output.  What it writes is the embedding of its input block against the
  padded measure, and a block of an embedding is the embedding of the block: entry `(p, q)` of point `t`'s block is
  row 256·t + p of the input against row `q` of the padded measure.  The 64 row blocks tile the output, so the
  output array ends holding the embedding of the whole input against the padded measure.
-/
import proofs.«409601_j35588099015224_3_alg».proof.Proof.Gen.KernelIdeal.Frame
import proofs.«409601_j35588099015224_3_alg».proof.Proof.BlockProduct
import proofs.«409601_j35588099015224_3_alg».proof.Proof.EmbedSpec
import Idealize.ShloMosaic.Lib.Pipeline.Value
import Idealize.ShloMosaic.Lib.ValueIdx

set_option maxRecDepth 16384

noncomputable section

namespace Cert.KernelIdeal.RegionArray

open Cert.KernelIdeal Cert.KernelIdeal.Gen Idealize.ShloMosaic Idealize.ShloMosaic.TcCoe Idealize.ShloMosaic.ValueIdx
open Idealize.SL.Sem Cert.Embed Cert.KernelIdeal.BlockProduct

variable (m : (ℓ : Loc nD τ sig) → Buf (Elt Ideal) ℓ)

/-- The input as the region finds it, typed as the 16384 × 9801 matrix it is. -/
abbrev inputArr (c : Dev nD) : FVec Ideal S16384x9801 .f32 := V m c main_arg0
/-- The padded measure as the region finds it, typed as the 128 × 9801 matrix it is. -/
abbrev weightArr (c : Dev nD) : FVec Ideal S128x9801 .bf16 := V m c main_v1

/-- What the output array ends holding: the whole input embedded against the padded measure. -/
abbrev regionResult (c : Dev nD) : FVec Ideal S16384x128 .f32 :=
  embed (B := 16384) (R := 128) (inputArr m c) (weightArr m c)

/-- Point `t`'s block of the input, typed as the 256 × 9801 matrix it is. -/
abbrev inputBlk (c : Dev nD) (t : Fin cfg0.N) : FVec Ideal S256x9801 .f32 := iblk m c 0 t
/-- Point `t`'s block of the padded measure (always the whole of it), typed as the 128 × 9801 matrix it is. -/
abbrev weightBlk (c : Dev nD) (t : Fin cfg0.N) : FVec Ideal S128x9801 .bf16 := iblk m c 1 t

theorem zero_offsets : (![0, 0] : Fin 2 → Nat) = fun _ => 0 := funext fun a => by fin_cases a <;> rfl

/-- The three block maps, decided over the 64 points: the input's row block moves with the output's, neither has a
    second block along the columns, and the measure's one block never moves. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 63 :=
  (by decide +kernel : ∀ t : Fin grid0.N, _)

/-- Every one of the 64 row blocks of the output is some point's. -/
theorem block_onto : ∀ q0 : Fin 64, ∃ t : Fin cfg0.N, win0_2.index t = ![q0.val, 0] :=
  (by decide +kernel : ∀ q0 : Fin 64, ∃ t : Fin grid0.N, win0_2.index t = ![q0.val, 0])

/-- Row `p` of point `t`'s input block is the row of the input array that row `p` of the output block sits on. -/
theorem inputBlock_apply (c : Dev nD) (t : Fin cfg0.N) (p : Fin 256) (q : Fin 128) (k : Fin 9801) :
    inputBlk m c t (ix2 p k) = inputArr m c (ix2 ((((cfg0.win 2).blk t).view.emb (ix2 p q)) 0) k) := by
  obtain ⟨e0, e1, e2, e3, e4, e5⟩ := block_indices t
  show V m c main_arg0 (((cfg0.win 0).blk t).view.emb (ix2 p k)) = V m c main_arg0 (ix2 ((((cfg0.win 2).blk t).view.emb (ix2 p q)) 0) k)
  refine congrArg (V m c main_arg0) (funext fun a => Fin.ext ?_)
  match a with
  | ⟨0, _⟩ => show win0_0.index t (0 : Fin 2) * 256 + 1 * p.val = win0_2.index t (0 : Fin 2) * 256 + 1 * p.val; omega
  | ⟨1, _⟩ => show win0_0.index t (1 : Fin 2) * 9801 + 1 * k.val = k.val; omega

/-- Row `q` of point `t`'s measure block is row `q` of the padded measure: the column of the output block is the
    column of the output array. -/
theorem weightBlock_apply (c : Dev nD) (t : Fin cfg0.N) (p : Fin 256) (q : Fin 128) (k : Fin 9801) :
    weightBlk m c t (ix2 q k) = weightArr m c (ix2 ((((cfg0.win 2).blk t).view.emb (ix2 p q)) 1) k) := by
  obtain ⟨e0, e1, e2, e3, e4, e5⟩ := block_indices t
  show V m c main_v1 (((cfg0.win 1).blk t).view.emb (ix2 q k)) = V m c main_v1 (ix2 ((((cfg0.win 2).blk t).view.emb (ix2 p q)) 1) k)
  refine congrArg (V m c main_v1) (funext fun a => Fin.ext ?_)
  match a with
  | ⟨0, _⟩ => show win0_1.index t (0 : Fin 2) * 128 + 1 * q.val = win0_2.index t (1 : Fin 2) * 128 + 1 * q.val; omega
  | ⟨1, _⟩ => show win0_1.index t (1 : Fin 2) * 9801 + 1 * k.val = k.val; omega

/-- WHAT POINT `t` WRITES BACK is block `t` of the whole embedding. -/
theorem flushed_eq (c : Dev nD) (t : Fin cfg0.N) :
    (dats m 0 c).flushed 2 t = ((cfg0.win 2).blk t).view.read (Elt Ideal) (regionResult m c) := by
  show (cfg0.win 2).cut (grid0.coords t) ((dats m 0 c).after 2 t) = _
  rw [after0_2]
  unfold out0_2
  rw [View.canon_unit_zero zero_offsets]
  simp only [View.ld_unit_zero (S := S256x9801) zero_offsets, View.ld_unit_zero (S := S128x9801) zero_offsets]
  funext y
  obtain ⟨p, q, rfl⟩ : ∃ (p : Fin 256) (q : Fin 128), y = ix2 p q := ⟨y 0, y 1, eq_ix2 y⟩
  show k0_pay1 (F := Ideal) (inputBlk m c t) (weightBlk m c t) (ix2 p q)
    = embed (B := 16384) (R := 128) (inputArr m c) (weightArr m c) (((cfg0.win 2).blk t).view.emb (ix2 p q))
  refine (stored_apply (inputBlk m c t) (weightBlk m c t) p q).trans ?_
  show (∑ k : Fin 9801, inputBlk m c t (ix2 p k) * weightBlk m c t (ix2 q k))
    = ∑ k : Fin 9801, inputArr m c (ix2 ((((cfg0.win 2).blk t).view.emb (ix2 p q)) 0) k)
        * weightArr m c (ix2 ((((cfg0.win 2).blk t).view.emb (ix2 p q)) 1) k)
  refine Finset.sum_congr rfl fun k _ => ?_
  rw [inputBlock_apply m c t p q k, weightBlock_apply m c t p q k]

/-- An index of the output array is in point `t`'s block iff each coordinate is in the block's range on its axis. -/
theorem mem_block (t : Fin cfg0.N) (i : S16384x128.Idx) :
    i ∈ ((cfg0.win 2).blk t).view.set ↔ ∀ a : Fin 2, win0_2.index t a * S256x128.size a ≤ (i a).val ∧ (i a).val < win0_2.index t a * S256x128.size a + S256x128.size a := by
  show i ∈ ((View.whole main_v2).slice (win0_2.rect t)).set ↔ _
  rw [View.set_slice_whole, Rect.mem_set_unit]
  exact Iff.rfl

/-- The 64 row blocks tile the output: row `r` is in the block of the point whose row block is `r / 256`. -/
theorem covered (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  obtain ⟨t, ht⟩ := block_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 128 ≤ (i 1).val ∧ (i 1).val < win0_2.index t (1 : Fin 2) * 128 + 128; omega

/-- THE OUTPUT ARRAY after the run is the whole input embedded against the padded measure. -/
theorem final (c : Dev nD) : (dats m 0 c).arrAt 2 cfg0.N = regionResult m c :=
  (dats m 0 c).arrAt_eq_of_cover 2 _ (fun t _ => flushed_eq m c t) (covered)

end Cert.KernelIdeal.RegionArray

end
-- ==== Proof.PaddedMeasure.lean ====
/-
  What the region finds in its second operand.  Before the region the program pads the 25-row measure with 103 rows
  of zeros below it and narrows the padded matrix to bf16.  On exact values the narrowing is the identity, and an index
  in one of the first 25 rows lies inside the padded operand, so there the region's operand IS the measure: row `o` of
  the one is row `o` of the other.  (The 103 zero rows only ever reach output columns that the program cuts away.)
-/
import proofs.«409601_j35588099015224_3_alg».proof.Proof.Gen.KernelIdeal.Frame
import Idealize.ShloMosaic.Lib.KernelVsHost
import Idealize.ShloMosaic.Lib.StableHlo.Run
import Idealize.ShloMosaic.Lib.ValueIdx

noncomputable section

namespace Cert.KernelIdeal.PaddedMeasure

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The region's second operand as the region finds it, typed as the 128 × 9801 matrix it is. -/
abbrev paddedMeasure (c : Dev nD) : FVec Ideal S128x9801 .bf16 := V m c main_v1

/-- The measure as launched, typed as the 25 × 9801 matrix it is. -/
abbrev measure (c : Dev nD) : FVec Ideal S25x9801 .f32 := m ((c : Thread nD τ).loc main_arg1)

/-- The host lines before the region, composed: the padded, narrowed measure. -/
theorem paddedMeasure_eq (c : Dev nD) :
    paddedMeasure m c = truncf .bf16 (pad S128x9801 ![0, 0] ![103, 0] ![0, 0] (measure m c)
      (sitofp (F := Ideal) .f32 (constantI S_ 32 0#32)) pads_S25x9801_S128x9801_01030_000 h_S_) bitsLt_bf16_f32 := by
  show V m c main_v1 = _
  dsimp only [Gen.V, Gen.V0]
  simp only [Gen.hostOps0, Gen.hostOps0_1, Gen.hostOps0_2, List.flatten_cons, List.flatten_nil, List.append_nil,
    List.cons_append, List.nil_append]
  after_results
  rfl

/-- Row `o` of the measure is row `o` of what the region finds: the index is inside the padded operand (no low
    padding, no interior padding), and the narrowing does nothing to an exact value. -/
theorem paddedMeasure_row (c : Dev nD) (o : Fin 25) (o' : Fin 128) (ho : o'.val = o.val) (k : Fin 9801) :
    paddedMeasure m c (ix2 o' k) = measure m c (ix2 o k) := by
  rw [paddedMeasure_eq]
  show pad S128x9801 ![0, 0] ![103, 0] ![0, 0] (measure m c) (sitofp (F := Ideal) .f32 (constantI S_ 32 0#32))
    pads_S25x9801_S128x9801_01030_000 h_S_ (ix2 o' k) = _
  refine pad_apply_of_inside _ _ _ _ _ _ _ (ix2 o' k) (ix2 o k) (fun a => ?_)
  match a with
  | ⟨0, _⟩ => show o'.val = 0 + o.val * (0 + 1); omega
  | ⟨1, _⟩ => show k.val = 0 + k.val * (0 + 1); omega

end Cert.KernelIdeal.PaddedMeasure

end
-- ==== Proof.KernelValue.lean ====
/-
  The kernel program's result.  After the region the program keeps the first 25 of the output's 128 columns.  The
  output array is the whole input embedded against the padded measure; column `o < 25` of that is the input against
  row `o` of the padded measure, which is row `o` of the measure itself.  So the result is the embedding of the
  input against the measure — the 103 zero rows never reach it.
-/
import proofs.«409601_j35588099015224_3_alg».proof.Proof.Gen.KernelIdeal.Frame
import proofs.«409601_j35588099015224_3_alg».proof.Proof.RegionArray
import proofs.«409601_j35588099015224_3_alg».proof.Proof.PaddedMeasure
import proofs.«409601_j35588099015224_3_alg».proof.Proof.EmbedSpec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo Cert.Embed
open Cert.KernelIdeal.RegionArray Cert.KernelIdeal.PaddedMeasure

variable (m : (ℓ : Loc nD τ sig) → Buf (Elt Ideal) ℓ) (ρ : Dev nD → PrngReg)

/-- The input as launched, typed as the 16384 × 9801 matrix it is. -/
abbrev input (c : Dev nD) : FVec Ideal S16384x9801 .f32 := m ((c : Thread nD τ).loc main_arg0)

/-- The one host line after the region: the result buffer holds the first 25 columns of the output array. -/
theorem tail_eq (c : Dev nD) :
    Pipeline.afterTail₀ cfgs (dats m) 0 (V0 m) [hostOps1] c main_v3
      = extractStridedSlice S16384x25 ![0, 0] (regionResult m c) slices_S16384x128_S16384x25_0_0 := by
  unfold Pipeline.afterTail₀
  show StableHlo.after hostOps1 _ (Proc.devRef .tc main_v3) = _
  after_results
  have harr : (Pipeline.withArrays (cfgs 0).spec c (V0 m c) (fun w => (dats m 0 c).arrAt w (cfgs 0).N)
      (Proc.tc.devRef main_v2) : FVec Ideal S16384x128 .f32) = regionResult m c :=
    (Pipeline.withArrays_arr spec0 launch0.win.arr_inj c _ _ 2).trans (final m c)
  rw [harr]

/-- THE RESULT: entry `(b, o)` is column `o` of the output array, which is row `b` of the input against row `o` of the
    padded measure; that row is row `o` of the measure, and the input is found as launched. -/
theorem result_eq (c : Dev nD) :
    Pipeline.afterTail₀ cfgs (dats m) 0 (V0 m) [hostOps1] c main_v3
      = embed (B := 16384) (R := 25) (input m c) (measure m c) := by
  rw [tail_eq]
  funext i
  obtain ⟨b, o, rfl⟩ : ∃ (b : Fin 16384) (o : Fin 25), i = ix2 b o := ⟨i 0, i 1, eq_ix2 i⟩
  refine (slice2_axis1_eq 0 (regionResult m c) slices_S16384x128_S16384x25_0_0 b o).trans ?_
  show rowDot (inputArr m c) (weightArr m c) b ⟨0 + o.val, _⟩ = rowDot (input m c) (measure m c) b o
  have hx : inputArr m c = input m c := V_main_arg0 m c
  rw [hx]
  exact rowDot_congr_row (input m c) (measure m c) (weightArr m c) b o _
    (fun k => paddedMeasure_row m c o _ (Nat.zero_add _) k)

/-- The kernel program's run, re-posted: every weakly fair execution terminates with the result buffer at the
    embedding of the launched input against the launched measure, and both arguments as launched. -/
theorem run : θ_run defs (onTc (τ := τ) (main (F := Ideal))) ⟨m, fun _ => 0, ρ⟩ fun r => ∀ c : Dev nD,
      r.2.mem ((c : Thread nD τ).loc main_v3) = embed (B := 16384) (R := 25) (input m c) (measure m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.KernelValue

end
-- ==== Proof.ReferenceEmbed.lean ====
/-
  The reference is the embedding.  Its one operation contracts the second axis of the input with the second axis of
  the measure, so entry `(b, o)` of its result is row `b` of the input against row `o` of the measure.
-/
import proofs.«409601_j35588099015224_3_alg».proof.Proof.Gen.ReferenceIdeal.Read
import proofs.«409601_j35588099015224_3_alg».proof.Proof.EmbedSpec

noncomputable section

namespace Cert.ReferenceIdeal.RefValue

open Cert.ReferenceIdeal Cert.ReferenceIdeal.Gen Cert.ReferenceIdeal.Read Idealize.ShloMosaic Idealize.ShloMosaic.ValueIdx Cert.Embed

/-- The reference's result, as a function of its two arguments, is the embedding: the operand indices the contraction
    reads at `(b, o)` and `k` are `(b, k)` of the input and `(o, k)` of the measure. -/
theorem result_eq (x0 : FVec Ideal S16384x9801 .f32) (x1 : FVec Ideal S25x9801 .f32) :
    val_main_v0 (F := Ideal) x0 x1 = embed x0 x1 := by
  funext i
  rw [val_main_v0_apply]
  have el : ∀ k : Fin 9801, lidx_main_v0 i k = ix2 (i 0) k := fun k =>
    funext fun a => Fin.ext (by match a with | ⟨0, _⟩ => rfl | ⟨1, _⟩ => rfl)
  have er : ∀ k : Fin 9801, ridx_main_v0 i k = ix2 (i 1) k := fun k =>
    funext fun a => Fin.ext (by match a with | ⟨0, _⟩ => rfl | ⟨1, _⟩ => rfl)
  simp only [el, er]
  rfl

end Cert.ReferenceIdeal.RefValue

end
-- ==== Proof.lean ====
/-
  A linear embedding  out[b, o] = Σ_k input[b, k] · measure[o, k]  (input 16384 × 9801, measure 25 × 9801), computed two ways.

  The kernel program pads the measure with 103 zero rows to 128 rows, narrows it to bf16, and runs a 64-point grid:
  point `t` takes rows 256·t … 256·t + 255 of the input, narrows them to bf16, multiplies them on the matrix unit
  against the whole padded measure (both operands contracted along their 9801 columns, zero accumulator) and writes
  the 256 × 128 product to rows 256·t … of a 16384 × 128 array; the program returns the first 25 columns of that array.
  The reference is one `dot_general` contracting the same two axes.

  Over the extended reals a change of float format is the identity and each product entry is exactly the sum of the 9801
  products, so the region's output array is the embedding of the whole input against the padded measure (a block of
  an embedding is the embedding of the block, and the 64 row blocks tile the array); its first 25 columns only meet
  the first 25 rows of the padded measure, which are the measure's own.  Both programs therefore end with the same
  function of their arguments, entry by entry, the very same sum in the very same order of factors: no law of
  arithmetic is needed beyond that, and the finiteness of the inputs is never used.

  The three frames are the generated ones (the reference's is its generated run with the result forgotten), and the
  idealisation rewrote nothing, so `preserves` is trivially true.
-/
import proofs.«409601_j35588099015224_3_alg».proof.Defs
import proofs.«409601_j35588099015224_3_alg».proof.Proof.Gen.Kernel
import proofs.«409601_j35588099015224_3_alg».proof.Proof.Gen.Kernel.Skeleton
import proofs.«409601_j35588099015224_3_alg».proof.Proof.Gen.Kernel.Launch
import proofs.«409601_j35588099015224_3_alg».proof.Proof.Gen.Kernel.Points
import proofs.«409601_j35588099015224_3_alg».proof.Proof.Gen.Kernel.Frame
import proofs.«409601_j35588099015224_3_alg».proof.Proof.Gen.KernelIdeal
import proofs.«409601_j35588099015224_3_alg».proof.Proof.Gen.KernelIdeal.Skeleton
import proofs.«409601_j35588099015224_3_alg».proof.Proof.Gen.KernelIdeal.Launch
import proofs.«409601_j35588099015224_3_alg».proof.Proof.Gen.KernelIdeal.Points
import proofs.«409601_j35588099015224_3_alg».proof.Proof.Gen.KernelIdeal.Frame
import proofs.«409601_j35588099015224_3_alg».proof.Proof.Gen.ReferenceIdeal
import proofs.«409601_j35588099015224_3_alg».proof.Proof.Gen.ReferenceIdeal.Run
import proofs.«409601_j35588099015224_3_alg».proof.Proof.Gen.ReferenceIdeal.Read
import proofs.«409601_j35588099015224_3_alg».proof.Proof.Gen.Pre_finite_inputs
import proofs.«409601_j35588099015224_3_alg».proof.Proof.KernelValue
import proofs.«409601_j35588099015224_3_alg».proof.Proof.ReferenceEmbed
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end at the embedding of the input against the measure: the kernel program by its re-posted run, the
    reference because its one contraction IS the embedding; the arguments agree, so the two results are one array. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
